-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : FVec F S50000x128 .f32) (main_arg2 : IVec S2x800000 32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S3200x128 : Shape := ⟨2, ![3200, 128]⟩
abbrev S3200 : Shape := ⟨1, ![3200]⟩
abbrev S3200x1 : Shape := ⟨2, ![3200, 1]⟩
abbrev S50000 : Shape := ⟨1, ![50000]⟩
abbrev S50000x1 : Shape := ⟨2, ![50000, 1]⟩

abbrev nBuf : Space → Nat
  | .hbm => 55
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S_, .f32⟩
  | .hbm, ⟨44, _⟩ => ⟨S800000, .f32⟩
  | .hbm, ⟨45, _⟩ => ⟨S_, .f32⟩
  | .hbm, ⟨46, _⟩ => ⟨S50000, .f32⟩
  | .hbm, ⟨47, _⟩ => ⟨S800000x1, .i32⟩
  | .hbm, ⟨48, _⟩ => ⟨S50000, .f32⟩
  | .hbm, ⟨49, _⟩ => ⟨S_, .f32⟩
  | .hbm, ⟨50, _⟩ => ⟨S50000, .f32⟩
  | .hbm, ⟨51, _⟩ => ⟨S50000, .f32⟩
  | .hbm, ⟨52, _⟩ => ⟨S50000x1, .f32⟩
  | .hbm, ⟨53, _⟩ => ⟨S50000x128, .f32⟩
  | .hbm, ⟨54, _⟩ => ⟨S50000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S3200x128, .f32⟩
  | .local _ .vmem, ⟨13, _⟩ => ⟨S3200x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3200x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  reduces_S3200x128_S3200 : S3200x128.Reduces [1] S3200
  shapeCasts_S3200_S3200x1 : S3200.ShapeCasts S3200x1
  broadcasts_S3200x1_S3200x128 : S3200x1.Broadcasts S3200x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S3200x128_S128x128_S3200x128_1_0_0_1_n_n_wf : DotDims.WF S3200x128 S128x128 S3200x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .f32 = 32 ∨ (Rect.block (s := S800000x128) S3200x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3200x128.size a ≤ S800000x128.size a
  hwx0_10 : ∀ i : grid0.Coords, EltTy.bits .f32 = 32 ∨ (Rect.block (s := S800000x128) S3200x128.size (cc0_transform_10 i) (hinb0_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_v10) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S3200x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000 : Shape := ⟨1, ![50000]⟩
abbrev S50000x1 : Shape := ⟨2, ![50000, 1]⟩

abbrev nBuf : Space → Nat
  | .hbm => 94
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S800000x128, .f32⟩
  | .hbm, ⟨34, _⟩ => ⟨S1x128, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S1x128, .f32⟩
  | .hbm, ⟨42, _⟩ => ⟨S800000x128, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S800000, .f32⟩
  | .hbm, ⟨47, _⟩ => ⟨S800000x1, .f32⟩
  | .hbm, ⟨48, _⟩ => ⟨S_, .f32⟩
  | .hbm, ⟨49, _⟩ => ⟨S800000x1, .f32⟩
  | .hbm, ⟨50, _⟩ => ⟨S800000x1, .f32⟩
  | .hbm, ⟨51, _⟩ => ⟨S800000x128, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S800000, .f32⟩
  | .hbm, ⟨56, _⟩ => ⟨S800000x1, .f32⟩
  | .hbm, ⟨57, _⟩ => ⟨S_, .f32⟩
  | .hbm, ⟨58, _⟩ => ⟨S800000x1, .f32⟩
  | .hbm, ⟨59, _⟩ => ⟨S800000x1, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S800000x1, .f32⟩
  | .hbm, ⟨64, _⟩ => ⟨S800000x1, .f32⟩
  | .hbm, ⟨65, _⟩ => ⟨S800000x1, .f32⟩
  | .hbm, ⟨66, _⟩ => ⟨S800000x128, .f32⟩
  | .hbm, ⟨67, _⟩ => ⟨S800000x128, .f32⟩
  | .hbm, ⟨68, _⟩ => ⟨S1x128, .f32⟩
  | .hbm, ⟨69, _⟩ => ⟨S800000x128, .f32⟩
  | .hbm, ⟨70, _⟩ => ⟨S800000x128, .f32⟩
  | .hbm, ⟨71, _⟩ => ⟨S1x128, .f32⟩
  | .hbm, ⟨72, _⟩ => ⟨S800000x128, .f32⟩
  | .hbm, ⟨73, _⟩ => ⟨S800000x128, .f32⟩
  | .hbm, ⟨74, _⟩ => ⟨S800000x128, .f32⟩
  | .hbm, ⟨75, _⟩ => ⟨S1x128, .f32⟩
  | .hbm, ⟨76, _⟩ => ⟨S800000x128, .f32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S_, .f32⟩
  | .hbm, ⟨83, _⟩ => ⟨S800000, .f32⟩
  | .hbm, ⟨84, _⟩ => ⟨S_, .f32⟩
  | .hbm, ⟨85, _⟩ => ⟨S50000, .f32⟩
  | .hbm, ⟨86, _⟩ => ⟨S800000x1, .i32⟩
  | .hbm, ⟨87, _⟩ => ⟨S50000, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x128, .f32⟩
  | .hbm, ⟨93, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_cst : Ref sig .tc := ⟨.hbm, 37, rfl⟩
abbrev main_call0_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_8 : Ref sig .tc := ⟨.hbm, 82, rfl⟩
abbrev main_v59 : Ref sig .tc := ⟨.hbm, 83, rfl⟩
abbrev main_cst_9 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_10 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  reducesTo_S800000x128_S800000_d1 : S800000x128.ReducesTo [1] S800000
  h_S_ : 0 < S_.numel
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.MessageSpec.lean ====
/-
  The message of one edge, as mathematics over the extended reals.

  An edge carries two rows of 128 numbers: `xj` (the source node's features) and `xd` (the destination node's).
  From the destination row a two-layer perceptron predicts the source row:
  `hidden k = max (∑ j, xd j · W1 j k + b1 k) 0`, `pred k = ∑ j, hidden j · W2 j k + b2 k`; the residual
  `r k = xj k − pred k` is normalised over its 128 entries — mean `μ = (∑ r) / 128`, variance
  `σ² = (∑ (r − μ)²) / 128`, `n k = (r k − μ) · rsqrt (σ² + ε) · γ k + β k` — and projected:
  `message q = ∑ k, n k · Wl k q + bl q`. Sums are sums of extended reals over `Fin 128`; the quotient and the
  reciprocal square root are the ideal instance's total functions; `128`, `ε` and the rectifier's `0` stay the f32
  words the two programs share.
-/
import Idealize.ShloMosaic.PureOps.Ideal
import Idealize.ShloMosaic.Lib.ValueIdx

noncomputable section

open scoped BigOperators

namespace Cert.Message

open Idealize.ShloMosaic Idealize.ShloMosaic.ValueIdx

/-- The rectified first layer of the perceptron at hidden unit `k`. -/
def hidden (xd : Fin 128 → EReal) (W1 : Fin 128 → Fin 128 → EReal) (b1 : Fin 128 → EReal) (k : Fin 128) : EReal :=
  max ((∑ j : Fin 128, xd j * W1 j k) + b1 k) (Ideal.ofBits .f32 0x00000000#32)

/-- The source row minus the perceptron's prediction of it, at feature `k`. -/
def residual (xj xd : Fin 128 → EReal) (W1 : Fin 128 → Fin 128 → EReal) (b1 : Fin 128 → EReal)
    (W2 : Fin 128 → Fin 128 → EReal) (b2 : Fin 128 → EReal) (k : Fin 128) : EReal :=
  xj k - ((∑ j : Fin 128, hidden xd W1 b1 j * W2 j k) + b2 k)

/-- The mean of a row of 128 entries. -/
def mean (r : Fin 128 → EReal) : EReal := Ideal.div (∑ j : Fin 128, r j) (Ideal.ofBits .f32 0x43000000#32)

/-- The row with its mean taken off every entry. -/
def centered (r : Fin 128 → EReal) (k : Fin 128) : EReal := r k - mean r

/-- The layer norm of a row at feature `k`, scaled by `g` and shifted by `be`. -/
def normed (r g be : Fin 128 → EReal) (k : Fin 128) : EReal :=
  centered r k
    * Ideal.rsqrt (Ideal.div (∑ j : Fin 128, centered r j * centered r j) (Ideal.ofBits .f32 0x43000000#32)
        + Ideal.ofBits .f32 0x3727C5AC#32)
    * g k + be k

/-- The projected message of a residual row at output feature `q`. -/
def project (r g be : Fin 128 → EReal) (Wl : Fin 128 → Fin 128 → EReal) (bl : Fin 128 → EReal) (q : Fin 128) : EReal :=
  (∑ k : Fin 128, normed r g be k * Wl k q) + bl q

/-- All 800000 × 128 messages as one array: entry `(e, q)` is the message of edge `e` — rows `e` of the two
    gathered feature arrays — at output feature `q`. -/
def all (XJ XD : (⟨2, ![800000, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 g be : (⟨1, ![128]⟩ : Shape).Idx → EReal) (Wl : (⟨2, ![128, 128]⟩ : Shape).Idx → EReal)
    (bl : (⟨1, ![128]⟩ : Shape).Idx → EReal) : (⟨2, ![800000, 128]⟩ : Shape).Idx → EReal := fun i =>
  project
    (residual (fun k => XJ (ix2 (i 0) k)) (fun k => XD (ix2 (i 0) k)) (fun a b => W1 (ix2 a b)) (fun k => b1 (ix1 k))
      (fun a b => W2 (ix2 a b)) (fun k => b2 (ix1 k)))
    (fun k => g (ix1 k)) (fun k => be (ix1 k)) (fun a b => Wl (ix2 a b)) (fun k => bl (ix1 k)) (i 1)

end Cert.Message

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.KernelRow.lean ====
/-
  One grid step of the kernel, read entry by entry.

  A grid step loads a block of 3200 edges — 3200 rows of the two gathered feature arrays — and the weights, and
  stores 3200 rows of messages. Every operation of the body acts row by row: a matrix product with a 128 × 128
  weight reads one row of its left operand, a bias is one row broadcast over the 3200, the mean and the variance are
  sums along a row kept as a column and broadcast back. So entry `(p, q)` of the stored block is the message
  (`Cert.Message.project` of `Cert.Message.residual`) of rows `p` of the two loaded blocks at output feature `q`.
  The narrowing of the matrix products' operands to bf16 is the identity on the extended reals.
-/
import proofs.«129598_j1099511628124_1_alg».proof.Proof.Gen.KernelIdeal.Frame
import proofs.«129598_j1099511628124_1_alg».proof.Proof.MessageSpec
import proofs.«129598_j1099511628124_1_alg».proof.Proof.LibDot
import proofs.«129598_j1099511628124_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.Message

/-- The reciprocal square root of a vector, read at an index. -/
theorem rsqrt_apply {s : Shape} {φ : FTy} (a : FVec Ideal s φ) (i : s.Idx) : rsqrt a i = Ideal.rsqrt (a i) := rfl

/-- A scalar word read at the ideal instance. -/
theorem scalar_ofBits (b : BitVec 32) : Scalar.ofBits (F := Ideal) .f32 b = Ideal.ofBits .f32 b := rfl

/-- The residual the first part of the body computes, at row `p` and feature `k`: the source row minus the
    perceptron's prediction from the destination row. -/
theorem residual_apply (v0 v2 : Vec Ideal S3200x128 .f32) (v4 : Vec Ideal S128x128 .f32) (v6 : Vec Ideal S1x128 .f32)
    (v8 : Vec Ideal S128x128 .f32) (v10 : Vec Ideal S1x128 .f32) (p : Fin 3200) (k : Fin 128) :
    k0_pay6 v0 v2 v4 v6 v8 v10 (ix2 p k)
      = Message.residual (fun j => v0 (ix2 p j)) (fun j => v2 (ix2 p j)) (fun a b => v4 (ix2 a b)) (fun j => v6 (ix2 (0 : Fin 1) j))
          (fun a b => v8 (ix2 a b)) (fun j => v10 (ix2 (0 : Fin 1) j)) k := by
  unfold k0_pay6 Message.residual Message.hidden
  simp only [subf_apply, addf_apply, maximumf_apply, truncf_apply, broadcast_apply, shapeCast_self,
    broadcastTo_1b_ab_apply, scalar_ofBits,
    Cert.LibDot.matmul_zero_apply dot_S3200x128_S128x128_S3200x128_1_0_0_1_n_n rfl rfl rfl rfl rfl rfl]

/-- A sum along the rows of a block of 3200 × 128 extended reals: at row `r`, the sum of that row's 128 entries. -/
theorem lanesum_apply (src : FVec Ideal S3200x128 .f32) (h : S3200x128.Reduces [1] S3200) (hφ : FKind.Formats .f32)
    (hacc : (0x00000000#32 : BitVec 32) = 0x00000000#32) (r : Fin 3200) :
    multiReduction .add [1] S3200 src 0x00000000#32 h hφ hacc (ix1 r) = ∑ c : Fin 128, src (ix2 r c) :=
  multiReduction_add_cols_apply src h hφ hacc r

/-- The row sums of the residual, kept as a column: entry `(p, 0)` is the sum of row `p`. -/
theorem rowsum_apply (v0 v2 : Vec Ideal S3200x128 .f32) (v4 : Vec Ideal S128x128 .f32) (v6 : Vec Ideal S1x128 .f32)
    (v8 : Vec Ideal S128x128 .f32) (v10 : Vec Ideal S1x128 .f32) (p : Fin 3200) :
    k0_pay7 v0 v2 v4 v6 v8 v10 (ix2 p (0 : Fin 1)) = ∑ k : Fin 128, k0_pay6 v0 v2 v4 v6 v8 v10 (ix2 p k) := by
  unfold k0_pay7
  rw [shapeCast_a_a1_apply]
  exact lanesum_apply _ _ _ _ p

/-- The divisor column: 128 in every row. -/
theorem divisor_apply (p : Fin 3200) : k0_pay8 (F := Ideal) (ix2 p (0 : Fin 1)) = Ideal.ofBits .f32 0x43000000#32 := rfl

/-- The second part of the body — normalise each row of `v30`, scale, shift, project — at row `p` and output
    feature `q`, given that `v32` holds the row sums of `v30` and `v33` the divisor. -/
theorem project_apply (v13 v15 : FVec Ideal S1x128 .f32) (v17 : FVec Ideal S128x128 .bf16) (v19 : FVec Ideal S1x128 .f32)
    (v30 : FVec Ideal S3200x128 .f32) (v32 v33 : FVec Ideal S3200x1 .f32) (p : Fin 3200) (q : Fin 128)
    (h32 : v32 (ix2 p (0 : Fin 1)) = ∑ k : Fin 128, v30 (ix2 p k))
    (h33 : v33 (ix2 p (0 : Fin 1)) = Ideal.ofBits .f32 0x43000000#32) :
    k0_pay1 v13 v15 v17 v19 v30 v32 v33 (ix2 p q)
      = Message.project (fun k => v30 (ix2 p k)) (fun k => v13 (ix2 (0 : Fin 1) k)) (fun k => v15 (ix2 (0 : Fin 1) k))
          (fun a b => v17 (ix2 a b)) (fun k => v19 (ix2 (0 : Fin 1) k)) q := by
  unfold k0_pay1 Message.project Message.normed Message.centered Message.mean
  simp only [subf_apply, addf_apply, mulf_apply, divf_apply, truncf_apply, broadcast_apply, rsqrt_apply,
    broadcastTo_1b_ab_apply, broadcastTo_a1_ab_apply, shapeCast_a_a1_apply, lanesum_apply, scalar_ofBits,
    Cert.LibDot.matmul_zero_apply dot_S3200x128_S128x128_S3200x128_1_0_0_1_n_n rfl rfl rfl rfl rfl rfl, h32, h33]
  rw [lanesum_apply]
  simp only [subf_apply, mulf_apply, divf_apply, broadcastTo_a1_ab_apply, h32, h33]

/-- THE BLOCK A GRID STEP STORES, entry `(p, q)`: the message of rows `p` of the two loaded edge blocks. -/
theorem body_apply (x0 x1 : Vec Ideal S3200x128 .f32) (x2 : Vec Ideal S128x128 .f32) (x3 : Vec Ideal S1x128 .f32)
    (x4 : Vec Ideal S128x128 .f32) (x5 x6 x7 : Vec Ideal S1x128 .f32) (x8 : Vec Ideal S128x128 .f32)
    (x9 : Vec Ideal S1x128 .f32) (p : Fin 3200) (q : Fin 128) :
    k0_pay1 (k0_pay2 x6) (k0_pay3 x7) (k0_pay4 x8) (k0_pay5 x9) (k0_pay6 x0 x1 x2 x3 x4 x5) (k0_pay7 x0 x1 x2 x3 x4 x5)
        (k0_pay8 (F := Ideal)) (ix2 p q)
      = Message.project
          (Message.residual (fun j => x0 (ix2 p j)) (fun j => x1 (ix2 p j)) (fun a b => x2 (ix2 a b)) (fun j => x3 (ix2 (0 : Fin 1) j))
            (fun a b => x4 (ix2 a b)) (fun j => x5 (ix2 (0 : Fin 1) j)))
          (fun k => x6 (ix2 (0 : Fin 1) k)) (fun k => x7 (ix2 (0 : Fin 1) k)) (fun a b => x8 (ix2 a b))
          (fun k => x9 (ix2 (0 : Fin 1) k)) q := by
  rw [project_apply _ _ _ _ _ _ _ p q (rowsum_apply x0 x1 x2 x3 x4 x5 p) (divisor_apply p)]
  simp only [residual_apply]
  unfold k0_pay2 k0_pay3 k0_pay4 k0_pay5
  simp only [shapeCast_self, truncf_apply]

/-- An entry of the stored block against an entry of the array of all messages: when the block's rows are the rows
    of the gathered arrays that edge `i 0` reads, the loaded weights are the weights, and the two entries sit in the
    same column, entry `j` of the block is entry `i` of `Cert.Message.all`. -/
theorem block_entry (x0 x1 : Vec Ideal S3200x128 .f32) (x2 : Vec Ideal S128x128 .f32) (x3 : Vec Ideal S1x128 .f32)
    (x4 : Vec Ideal S128x128 .f32) (x5 x6 x7 : Vec Ideal S1x128 .f32) (x8 : Vec Ideal S128x128 .f32)
    (x9 : Vec Ideal S1x128 .f32)
    (XJ XD : (⟨2, ![800000, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 g be : (⟨1, ![128]⟩ : Shape).Idx → EReal) (Wl : (⟨2, ![128, 128]⟩ : Shape).Idx → EReal)
    (bl : (⟨1, ![128]⟩ : Shape).Idx → EReal)
    (j : S3200x128.Idx) (i : (⟨2, ![800000, 128]⟩ : Shape).Idx)
    (h0 : ∀ k : Fin 128, x0 (ix2 (n0 := 3200) (j 0) k) = XJ (ix2 (n0 := 800000) (i 0) k))
    (h1 : ∀ k : Fin 128, x1 (ix2 (n0 := 3200) (j 0) k) = XD (ix2 (n0 := 800000) (i 0) k))
    (h2 : ∀ a b : Fin 128, x2 (ix2 a b) = W1 (ix2 a b)) (h3 : ∀ k : Fin 128, x3 (ix2 (0 : Fin 1) k) = b1 (ix1 k))
    (h4 : ∀ a b : Fin 128, x4 (ix2 a b) = W2 (ix2 a b)) (h5 : ∀ k : Fin 128, x5 (ix2 (0 : Fin 1) k) = b2 (ix1 k))
    (h6 : ∀ k : Fin 128, x6 (ix2 (0 : Fin 1) k) = g (ix1 k)) (h7 : ∀ k : Fin 128, x7 (ix2 (0 : Fin 1) k) = be (ix1 k))
    (h8 : ∀ a b : Fin 128, x8 (ix2 a b) = Wl (ix2 a b)) (h9 : ∀ k : Fin 128, x9 (ix2 (0 : Fin 1) k) = bl (ix1 k))
    (hq : (j 1).val = (i 1).val) :
    k0_pay1 (k0_pay2 x6) (k0_pay3 x7) (k0_pay4 x8) (k0_pay5 x9) (k0_pay6 x0 x1 x2 x3 x4 x5) (k0_pay7 x0 x1 x2 x3 x4 x5)
        (k0_pay8 (F := Ideal)) j
      = Message.all XJ XD W1 b1 W2 b2 g be Wl bl i := by
  obtain ⟨p, q, rfl⟩ : ∃ (p : Fin 3200) (q : Fin 128), j = ix2 p q := ⟨j 0, j 1, eq_ix2 j⟩
  rw [body_apply]
  have hq' : q = i 1 := Fin.ext hq
  subst hq'
  unfold Message.all
  have e0 : (fun k : Fin 128 => x0 (ix2 p k)) = fun k => XJ (ix2 (i 0) k) := funext h0
  have e1 : (fun k : Fin 128 => x1 (ix2 p k)) = fun k => XD (ix2 (i 0) k) := funext h1
  have e2 : (fun a b : Fin 128 => x2 (ix2 a b)) = fun a b => W1 (ix2 a b) := funext fun a => funext (h2 a)
  have e3 : (fun k : Fin 128 => x3 (ix2 (0 : Fin 1) k)) = fun k => b1 (ix1 k) := funext h3
  have e4 : (fun a b : Fin 128 => x4 (ix2 a b)) = fun a b => W2 (ix2 a b) := funext fun a => funext (h4 a)
  have e5 : (fun k : Fin 128 => x5 (ix2 (0 : Fin 1) k)) = fun k => b2 (ix1 k) := funext h5
  have e6 : (fun k : Fin 128 => x6 (ix2 (0 : Fin 1) k)) = fun k => g (ix1 k) := funext h6
  have e7 : (fun k : Fin 128 => x7 (ix2 (0 : Fin 1) k)) = fun k => be (ix1 k) := funext h7
  have e8 : (fun a b : Fin 128 => x8 (ix2 a b)) = fun a b => Wl (ix2 a b) := funext fun a => funext (h8 a)
  have e9 : (fun k : Fin 128 => x9 (ix2 (0 : Fin 1) k)) = fun k => bl (ix1 k) := funext h9
  rw [e0, e1, e2, e3, e4, e5, e6, e7, e8, e9]

end Cert.KernelIdeal.Row

end
-- ==== Proof.KernelArray.lean ====
/-
  The array of messages after the kernel's 250 grid steps.

  Grid step `t` reads rows `3200·t … 3200·t + 3199` of the two gathered feature arrays and the whole of every weight,
  and writes rows `3200·t … 3200·t + 3199` of the output array. What it writes is, entry by entry, the message of the
  edge the entry's row belongs to (`Cert.KernelIdeal.Row.block_entry`), so each written block is a block of ONE
  array, `Cert.Message.all` of the arrays the kernel is launched on; the 250 blocks tile the 800000 rows, so that
  array is what the output holds after the run. A bias reaches the kernel as a `[1, 128]` row; `rowOf` reads such a
  row back as a vector.
-/
import proofs.«129598_j1099511628124_1_alg».proof.Proof.Gen.KernelIdeal.Frame
import proofs.«129598_j1099511628124_1_alg».proof.Proof.KernelRow
import Idealize.ShloMosaic.Lib.Pipeline.Value

set_option maxRecDepth 16384

noncomputable section

namespace Cert.KernelIdeal.Messages

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- A `[1, 128]` row read as a vector of 128 entries. -/
def rowOf (v : S1x128.Idx → EReal) : (⟨1, ![128]⟩ : Shape).Idx → EReal := fun i => v (ix2 (0 : Fin 1) (i 0))

/-- All messages, from the arrays the kernel is launched on (the gathered features, the weights, the bias rows). -/
def msgs (c : Dev nD) : (⟨2, ![800000, 128]⟩ : Shape).Idx → EReal :=
  Message.all (V m c main_v10) (V m c main_v17) (V m c main_arg3) (rowOf (V m c main_v18)) (V m c main_arg5)
    (rowOf (V m c main_v19)) (rowOf (V m c main_v20)) (rowOf (V m c main_v21)) (V m c main_arg9) (rowOf (V m c main_v22))

theorem hz : (![0, 0] : Fin 2 → Nat) = fun _ => 0 := funext fun a => by fin_cases a <;> rfl

/-- The block index maps over the grid: the two edge inputs and the output are at block row `t`, column block 0. -/
theorem idx_edges : ∀ t : Fin cfg0.N, win0_0.index t (0 : Fin 2) = win0_10.index t (0 : Fin 2)
    ∧ win0_0.index t (1 : Fin 2) = 0
    ∧ win0_1.index t (0 : Fin 2) = win0_10.index t (0 : Fin 2)
    ∧ win0_1.index t (1 : Fin 2) = 0
    ∧ win0_10.index t (0 : Fin 2) = t.val
    ∧ win0_10.index t (1 : Fin 2) = 0 :=
  (by decide +kernel : ∀ t : Fin grid0.N, _)

/-- Every weight and bias window is its whole array at every grid step. -/
theorem idx_weights : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

-- ten block reads, each opened through its window's view
set_option maxHeartbeats 2000000 in
/-- WHAT GRID STEP `t` WRITES BACK is block `t` of the array of all messages. -/
theorem flushed_eq (c : Dev nD) (t : Fin cfg0.N) :
    (dats m 0 c).flushed 10 t = ((cfg0.win 10).blk t).view.read (Elt Ideal) (msgs m c) := by
  show (cfg0.win 10).cut (grid0.coords t) ((dats m 0 c).after 10 t) = _
  rw [after0_10]
  unfold out0_10
  rw [View.canon_unit_zero hz]
  simp only [View.ld_unit_zero (S := S3200x128) hz, View.ld_unit_zero (S := S128x128) hz, View.ld_unit_zero (S := S1x128) hz]
  obtain ⟨e0a, e0b, e1a, e1b, e10a, e10b⟩ := idx_edges t
  obtain ⟨e2a, e2b, e3a, e3b, e4a, e4b, e5a, e5b, e6a, e6b, e7a, e7b, e8a, e8b, e9a, e9b⟩ := idx_weights t
  funext j
  show _ = msgs m c (((cfg0.win 10).blk t).view.emb j)
  unfold msgs
  refine Row.block_entry (iblk m c 0 t) (iblk m c 1 t) (iblk m c 2 t) (iblk m c 3 t) (iblk m c 4 t) (iblk m c 5 t)
    (iblk m c 6 t) (iblk m c 7 t) (iblk m c 8 t) (iblk m c 9 t)
    (V m c main_v10) (V m c main_v17) (V m c main_arg3) (rowOf (V m c main_v18)) (V m c main_arg5)
    (rowOf (V m c main_v19)) (rowOf (V m c main_v20)) (rowOf (V m c main_v21)) (V m c main_arg9) (rowOf (V m c main_v22))
    j (((cfg0.win 10).blk t).view.emb j) (fun k => ?_) (fun k => ?_) (fun a b => ?_) (fun k => ?_) (fun a b => ?_)
    (fun k => ?_) (fun k => ?_) (fun k => ?_) (fun a b => ?_) (fun k => ?_) ?_
  · -- row `j 0` of the source block is row `3200·t + j 0` of the gathered source features
    show V m c main_v10 (((cfg0.win 0).blk t).view.emb (ix2 (n0 := 3200) (j 0) k)) = V m c main_v10 (ix2 (n0 := 800000) ((((cfg0.win 10).blk t).view.emb j) 0) k)
    refine congrArg (V m c main_v10) (funext fun a => Fin.ext ?_)
    match a with
    | ⟨0, _⟩ => show win0_0.index t (0 : Fin 2) * 3200 + 1 * (j 0).val = win0_10.index t (0 : Fin 2) * 3200 + 1 * (j 0).val; omega
    | ⟨1, _⟩ => show win0_0.index t (1 : Fin 2) * 128 + 1 * k.val = k.val; omega
  · show V m c main_v17 (((cfg0.win 1).blk t).view.emb (ix2 (n0 := 3200) (j 0) k)) = V m c main_v17 (ix2 (n0 := 800000) ((((cfg0.win 10).blk t).view.emb j) 0) k)
    refine congrArg (V m c main_v17) (funext fun a => Fin.ext ?_)
    match a with
    | ⟨0, _⟩ => show win0_1.index t (0 : Fin 2) * 3200 + 1 * (j 0).val = win0_10.index t (0 : Fin 2) * 3200 + 1 * (j 0).val; omega
    | ⟨1, _⟩ => show win0_1.index t (1 : Fin 2) * 128 + 1 * k.val = k.val; omega
  · show V m c main_arg3 (((cfg0.win 2).blk t).view.emb (ix2 a b)) = V m c main_arg3 (ix2 a b)
    refine congrArg (V m c main_arg3) (funext fun ax => Fin.ext ?_)
    match ax with
    | ⟨0, _⟩ => show win0_2.index t (0 : Fin 2) * 128 + 1 * a.val = a.val; omega
    | ⟨1, _⟩ => show win0_2.index t (1 : Fin 2) * 128 + 1 * b.val = b.val; omega
  · show V m c main_v18 (((cfg0.win 3).blk t).view.emb (ix2 (0 : Fin 1) k)) = V m c main_v18 (ix2 (0 : Fin 1) k)
    refine congrArg (V m c main_v18) (funext fun ax => Fin.ext ?_)
    match ax with
    | ⟨0, _⟩ => show win0_3.index t (0 : Fin 2) * 1 + 1 * 0 = 0; omega
    | ⟨1, _⟩ => show win0_3.index t (1 : Fin 2) * 128 + 1 * k.val = k.val; omega
  · show V m c main_arg5 (((cfg0.win 4).blk t).view.emb (ix2 a b)) = V m c main_arg5 (ix2 a b)
    refine congrArg (V m c main_arg5) (funext fun ax => Fin.ext ?_)
    match ax with
    | ⟨0, _⟩ => show win0_4.index t (0 : Fin 2) * 128 + 1 * a.val = a.val; omega
    | ⟨1, _⟩ => show win0_4.index t (1 : Fin 2) * 128 + 1 * b.val = b.val; omega
  · show V m c main_v19 (((cfg0.win 5).blk t).view.emb (ix2 (0 : Fin 1) k)) = V m c main_v19 (ix2 (0 : Fin 1) k)
    refine congrArg (V m c main_v19) (funext fun ax => Fin.ext ?_)
    match ax with
    | ⟨0, _⟩ => show win0_5.index t (0 : Fin 2) * 1 + 1 * 0 = 0; omega
    | ⟨1, _⟩ => show win0_5.index t (1 : Fin 2) * 128 + 1 * k.val = k.val; omega
  · show V m c main_v20 (((cfg0.win 6).blk t).view.emb (ix2 (0 : Fin 1) k)) = V m c main_v20 (ix2 (0 : Fin 1) k)
    refine congrArg (V m c main_v20) (funext fun ax => Fin.ext ?_)
    match ax with
    | ⟨0, _⟩ => show win0_6.index t (0 : Fin 2) * 1 + 1 * 0 = 0; omega
    | ⟨1, _⟩ => show win0_6.index t (1 : Fin 2) * 128 + 1 * k.val = k.val; omega
  · show V m c main_v21 (((cfg0.win 7).blk t).view.emb (ix2 (0 : Fin 1) k)) = V m c main_v21 (ix2 (0 : Fin 1) k)
    refine congrArg (V m c main_v21) (funext fun ax => Fin.ext ?_)
    match ax with
    | ⟨0, _⟩ => show win0_7.index t (0 : Fin 2) * 1 + 1 * 0 = 0; omega
    | ⟨1, _⟩ => show win0_7.index t (1 : Fin 2) * 128 + 1 * k.val = k.val; omega
  · show V m c main_arg9 (((cfg0.win 8).blk t).view.emb (ix2 a b)) = V m c main_arg9 (ix2 a b)
    refine congrArg (V m c main_arg9) (funext fun ax => Fin.ext ?_)
    match ax with
    | ⟨0, _⟩ => show win0_8.index t (0 : Fin 2) * 128 + 1 * a.val = a.val; omega
    | ⟨1, _⟩ => show win0_8.index t (1 : Fin 2) * 128 + 1 * b.val = b.val; omega
  · show V m c main_v22 (((cfg0.win 9).blk t).view.emb (ix2 (0 : Fin 1) k)) = V m c main_v22 (ix2 (0 : Fin 1) k)
    refine congrArg (V m c main_v22) (funext fun ax => Fin.ext ?_)
    match ax with
    | ⟨0, _⟩ => show win0_9.index t (0 : Fin 2) * 1 + 1 * 0 = 0; omega
    | ⟨1, _⟩ => show win0_9.index t (1 : Fin 2) * 128 + 1 * k.val = k.val; omega
  · -- the entry's column in the block is its column in the array
    show (j 1).val = win0_10.index t (1 : Fin 2) * 128 + 1 * (j 1).val
    omega

/-- An index of the output array is in grid step `t`'s block iff each coordinate is in the block's range on its axis. -/
theorem mem_blk (t : Fin cfg0.N) (i : S800000x128.Idx) :
    i ∈ ((cfg0.win 10).blk t).view.set ↔ ∀ a : Fin 2, win0_10.index t a * S3200x128.size a ≤ (i a).val ∧ (i a).val < win0_10.index t a * S3200x128.size a + S3200x128.size a := by
  show i ∈ ((View.whole main_v23).slice (win0_10.rect t)).set ↔ _
  rw [View.set_slice_whole, Rect.mem_set_unit]
  exact Iff.rfl

/-- Row `r` of the output array is in the block of grid step `r / 3200`. -/
theorem cover (i : S800000x128.Idx) :
    ∃ t : Fin cfg0.N, (cfg0.win 10).flush t = true ∧ i ∈ ((cfg0.win 10).blk t).view.set := by
  have hi0 : (i 0).val < 800000 := (i 0).isLt
  have hi1 : (i 1).val < 128 := (i 1).isLt
  obtain ⟨t, ht⟩ : ∃ t : Fin cfg0.N, t.val = (i 0).val / 3200 :=
    ⟨⟨(i 0).val / 3200, by show _ < grid0.N; rw [N_0]; omega⟩, rfl⟩
  obtain ⟨-, -, -, -, e10a, e10b⟩ := idx_edges t
  refine ⟨t, flush0_10 t, ?_⟩
  rw [mem_blk]
  intro a
  match a with
  | ⟨0, _⟩ => show win0_10.index t (0 : Fin 2) * 3200 ≤ (i 0).val ∧ (i 0).val < win0_10.index t (0 : Fin 2) * 3200 + 3200; omega
  | ⟨1, _⟩ => show win0_10.index t (1 : Fin 2) * 128 ≤ (i 1).val ∧ (i 1).val < win0_10.index t (1 : Fin 2) * 128 + 128; omega

/-- THE OUTPUT ARRAY after the run is the array of all messages. -/
theorem final (c : Dev nD) : (dats m 0 c).arrAt 10 cfg0.N = msgs m c :=
  (dats m 0 c).arrAt_eq_of_cover 10 (msgs m c) (fun t _ => flushed_eq m c t) cover

end Cert.KernelIdeal.Messages

end
-- ==== Proof.KernelResult.lean ====
/-
  The kernel program's result.

  After the 250 grid steps the program scatters the messages back to the nodes: each message row is added into the
  row of its destination node, a count of ones is scattered the same way, and the sums are divided by the counts
  (at least one). `scatterMean` is that tail as a function of the destination indices and the array of messages;
  the program's result is `scatterMean` of the destination index vector it extracted before the launch and of
  `Cert.Message.all` (`msgs`), and its arguments end as they began.
-/
import proofs.«129598_j1099511628124_1_alg».proof.Proof.Gen.KernelIdeal.Frame
import proofs.«129598_j1099511628124_1_alg».proof.Proof.KernelArray
import Idealize.ShloMosaic.Lib.StableHlo.Run
import Idealize.ShloMosaic.Lib.ValueLayout

set_option maxRecDepth 16384

noncomputable section

namespace Cert.KernelIdeal.Messages

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

/-- The mean of the messages arriving at each node: message rows summed into their destination rows, divided by
    the number of arriving messages, counted by scattering ones, or by one where none arrives. -/
def scatterMean (dst : S800000.Idx → BitVec 32) (msg : S800000x128.Idx → EReal) : S50000x128.Idx → EReal :=
  Host.divf (F := Ideal)
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst) msg)
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S50000 ![] bcast_S_S50000 (constant (F := Ideal) S_ .f32 0x3F800000#32)))))

/-- The program's result buffer after the host operations that follow the launch. -/
theorem result_eq (c : Dev nD) :
    Pipeline.afterTail₀ cfgs (dats m) 0 (V0 m) [hostOps1] c main_v35 = scatterMean (V m c main_v3) (msgs m c) := by
  unfold Pipeline.afterTail₀
  show StableHlo.after hostOps1 _ (Proc.devRef .tc main_v35) = _
  after_results
  have h3 : Pipeline.withArrays (cfgs 0).spec c (V0 m c) (fun w => (dats m 0 c).arrAt w (cfgs 0).N) (Proc.devRef .tc main_v3)
      = V m c main_v3 :=
    Pipeline.withArrays_of_ne _ c (V0 m c) _ main_v3 (by exact (by decide : ∀ w, Pipeline.arrRef spec0 w ≠ main_v3))
  have h23 : Pipeline.withArrays (cfgs 0).spec c (V0 m c) (fun w => (dats m 0 c).arrAt w (cfgs 0).N) (Proc.devRef .tc main_v23)
      = msgs m c :=
    (Pipeline.withArrays_arr spec0 launch0.win.arr_inj c _ _ 10).trans (final m c)
  rw [h3, h23]
  rfl

/-- THE KERNEL PROGRAM'S RUN: every weakly fair execution terminates with the result at `scatterMean` of the
    destination indices and of all messages, and with the arguments as they were. -/
theorem run : θ_run defs (onTc (τ := τ) (main (F := Ideal))) ⟨m, fun _ => 0, ρ⟩ (fun r => ∀ c : Dev nD,
      r.2.mem ((c.tc : Thread nD τ).loc main_v35) = scatterMean (V m c main_v3) (msgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v35 (Pipeline.mem_restRefs_of main_v35 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).1 8).trans (((dats m 0 c).arrAt_in 8 rfl _).trans ((A_eq m c 8).trans (V_main_arg9 m c))),
      ((h c).2 main_arg10 (Pipeline.mem_restRefs_of main_arg10 (by decide) (by decide))).trans (W_main_arg10 m (dats m) c)⟩)
    (run_main m ρ)

end Cert.KernelIdeal.Messages

end
-- ==== Proof.ReferenceMessages.lean ====
/-
  The reference's messages, read entry by entry.

  The reference computes all 800000 messages at once: three `dot_general`s with the 128 × 128 weights, the biases
  broadcast from `[128]` through `[1, 128]`, the mean and the variance as sums along axis 1 broadcast back through
  `[800000, 1]`. Read at entry `(e, q)`, every stage depends on row `e` of the two gathered feature arrays only, and
  the composition is the message (`Cert.Message.project` of `Cert.Message.residual`) of those two rows at output
  feature `q`: `Cert.Message.all` of the gathered arrays and the weights. The host's sums start from the word `0`,
  which is the extended real `0`.
-/
import proofs.«129598_j1099511628124_1_alg».proof.Proof.Gen.ReferenceIdeal.Run
import proofs.«129598_j1099511628124_1_alg».proof.Proof.Gen.ReferenceIdeal.Read
import proofs.«129598_j1099511628124_1_alg».proof.Proof.MessageSpec
import Idealize.ShloMosaic.Lib.ValueIdx
import Idealize.ShloMosaic.PureOps.Ideal.Laws

noncomputable section

open scoped BigOperators

namespace Cert.ReferenceIdeal.Messages

open Cert.ReferenceIdeal Cert.ReferenceIdeal.Gen Cert.ReferenceIdeal.Read Idealize.ShloMosaic Idealize.ShloMosaic.ValueIdx
open Cert.Message

/-! ## Where each stage reads its operand: the generated index maps at an entry given by coordinates -/

section Indices

variable (e : Fin 800000) (k j : Fin 128) (u : Fin 1)

theorem lidx18 : lidx_main_v18 (ix2 e k) j = ix2 e j := funext fun a => by match a with | ⟨0, _⟩ => rfl | ⟨1, _⟩ => rfl
theorem ridx18 : ridx_main_v18 (ix2 e k) j = ix2 j k := funext fun a => by match a with | ⟨0, _⟩ => rfl | ⟨1, _⟩ => rfl
theorem lidx23 : lidx_main_v23 (ix2 e k) j = ix2 e j := funext fun a => by match a with | ⟨0, _⟩ => rfl | ⟨1, _⟩ => rfl
theorem ridx23 : ridx_main_v23 (ix2 e k) j = ix2 j k := funext fun a => by match a with | ⟨0, _⟩ => rfl | ⟨1, _⟩ => rfl
theorem lidx52 : lidx_main_v52 (ix2 e k) j = ix2 e j := funext fun a => by match a with | ⟨0, _⟩ => rfl | ⟨1, _⟩ => rfl
theorem ridx52 : ridx_main_v52 (ix2 e k) j = ix2 j k := funext fun a => by match a with | ⟨0, _⟩ => rfl | ⟨1, _⟩ => rfl

theorem idx20 : idx_main_v20 (ix2 e k) = ix2 (0 : Fin 1) k := funext fun a => by match a with | ⟨0, _⟩ => rfl | ⟨1, _⟩ => rfl
theorem idx25 : idx_main_v25 (ix2 e k) = ix2 (0 : Fin 1) k := funext fun a => by match a with | ⟨0, _⟩ => rfl | ⟨1, _⟩ => rfl
theorem idx47 : idx_main_v47 (ix2 e k) = ix2 (0 : Fin 1) k := funext fun a => by match a with | ⟨0, _⟩ => rfl | ⟨1, _⟩ => rfl
theorem idx50 : idx_main_v50 (ix2 e k) = ix2 (0 : Fin 1) k := funext fun a => by match a with | ⟨0, _⟩ => rfl | ⟨1, _⟩ => rfl
theorem idx54 : idx_main_v54 (ix2 e k) = ix2 (0 : Fin 1) k := funext fun a => by match a with | ⟨0, _⟩ => rfl | ⟨1, _⟩ => rfl

theorem idx19 : idx_main_v19 (ix2 u k) = ix1 k := funext fun a => by match a with | ⟨0, _⟩ => rfl
theorem idx24 : idx_main_v24 (ix2 u k) = ix1 k := funext fun a => by match a with | ⟨0, _⟩ => rfl
theorem idx46 : idx_main_v46 (ix2 u k) = ix1 k := funext fun a => by match a with | ⟨0, _⟩ => rfl
theorem idx49 : idx_main_v49 (ix2 u k) = ix1 k := funext fun a => by match a with | ⟨0, _⟩ => rfl
theorem idx53 : idx_main_v53 (ix2 u k) = ix1 k := funext fun a => by match a with | ⟨0, _⟩ => rfl

theorem idx32 : idx_main_v32 (ix2 e k) = ix2 e (0 : Fin 1) := funext fun a => by match a with | ⟨0, _⟩ => rfl | ⟨1, _⟩ => rfl
theorem idx39 : idx_main_v39 (ix2 e k) = ix2 e (0 : Fin 1) := funext fun a => by match a with | ⟨0, _⟩ => rfl | ⟨1, _⟩ => rfl
theorem idx44 : idx_main_v44 (ix2 e k) = ix2 e (0 : Fin 1) := funext fun a => by match a with | ⟨0, _⟩ => rfl | ⟨1, _⟩ => rfl

theorem idx29 : idx_main_v29 (ix2 e u) = ix1 e := funext fun a => by match a with | ⟨0, _⟩ => rfl
theorem idx36 : idx_main_v36 (ix2 e u) = ix1 e := funext fun a => by match a with | ⟨0, _⟩ => rfl

theorem idx28 : idx_main_v28 (ix1 e) k = ix2 e k := funext fun a => by match a with | ⟨0, _⟩ => rfl | ⟨1, _⟩ => rfl
theorem idx35 : idx_main_v35 (ix1 e) k = ix2 e k := funext fun a => by match a with | ⟨0, _⟩ => rfl | ⟨1, _⟩ => rfl

end Indices

/-! ## The stages at an entry -/

section Stages

variable (x0 x1 : (⟨S50000x128, .f32⟩ : BufTy).Contents (Elt Ideal)) (x2 : (⟨S2x800000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 x7 x8 : (⟨S128, .f32⟩ : BufTy).Contents (Elt Ideal))
  (x9 : (⟨S128x128, .f32⟩ : BufTy).Contents (Elt Ideal)) (x10 : (⟨S128, .f32⟩ : BufTy).Contents (Elt Ideal))

/-- The rectified first layer at `(e, k)`: of row `e` of the gathered destination features. -/
theorem hidden_apply (e : Fin 800000) (k : Fin 128) :
    val_main_v22 (F := Ideal) x1 x2 x3 x4 (ix2 e k)
      = Message.hidden (fun i => val_main_v17 (F := Ideal) x1 x2 (ix2 e i)) (fun a b => x3 (ix2 a b)) (fun i => x4 (ix1 i)) k := by
  unfold Message.hidden
  simp only [val_main_v22_apply, val_main_v21_apply, val_main_v18_apply, val_main_v20_apply, val_main_v19_apply,
    val_main_call0_v0_apply, val_main_call0_cst_apply, lidx18, ridx18, idx20, idx19, Ideal.maximumf_def, Ideal.addf_def,
    Ideal.ofBits_def]

/-- The residual at `(e, k)`: the gathered source row minus the perceptron's prediction. -/
theorem residual_apply (e : Fin 800000) (k : Fin 128) :
    val_main_v27 (F := Ideal) x0 x1 x2 x3 x4 x5 x6 (ix2 e k)
      = Message.residual (fun i => val_main_v10 (F := Ideal) x0 x2 (ix2 e i)) (fun i => val_main_v17 (F := Ideal) x1 x2 (ix2 e i))
          (fun a b => x3 (ix2 a b)) (fun i => x4 (ix1 i)) (fun a b => x5 (ix2 a b)) (fun i => x6 (ix1 i)) k := by
  unfold Message.residual
  simp only [val_main_v27_apply, val_main_v26_apply, val_main_v23_apply, val_main_v25_apply, val_main_v24_apply,
    lidx23, ridx23, idx25, idx24, hidden_apply, Ideal.subf_def, Ideal.addf_def]

/-- The mean of the residual's row `e`, as the reference keeps it in column form. -/
theorem mean_apply (e : Fin 800000) (u : Fin 1) :
    val_main_v31 (F := Ideal) x0 x1 x2 x3 x4 x5 x6 (ix2 e u)
      = Message.mean (fun k => val_main_v27 (F := Ideal) x0 x1 x2 x3 x4 x5 x6 (ix2 e k)) := by
  unfold Message.mean
  simp only [val_main_v31_apply, val_main_v29_apply, val_main_v28_apply, val_main_v30_apply, val_main_cst_apply,
    val_main_cst_3_apply, idx29, idx28, Ideal.hostDivf_def, Ideal.ofBits_def, Ideal.ofBits_zero_f32, zero_add]

/-- The normalised, scaled and shifted residual at `(e, k)`. -/
theorem normed_apply (e : Fin 800000) (k : Fin 128) :
    val_main_v51 (F := Ideal) x0 x1 x2 x3 x4 x5 x6 x7 x8 (ix2 e k)
      = Message.normed (fun i => val_main_v27 (F := Ideal) x0 x1 x2 x3 x4 x5 x6 (ix2 e i)) (fun i => x7 (ix1 i)) (fun i => x8 (ix1 i)) k := by
  unfold Message.normed Message.centered
  simp only [val_main_v51_apply, val_main_v48_apply, val_main_v45_apply, val_main_v40_apply, val_main_v39_apply,
    val_main_v44_apply, val_main_v43_apply, val_main_v42_apply, val_main_v38_apply, val_main_v36_apply, val_main_v35_apply,
    val_main_v34_apply, val_main_v33_apply, val_main_v32_apply, val_main_v37_apply, val_main_v41_apply,
    val_main_v47_apply, val_main_v46_apply, val_main_v50_apply, val_main_v49_apply,
    val_main_cst_4_apply, val_main_cst_5_apply, val_main_cst_6_apply,
    idx39, idx44, idx36, idx35, idx32, idx47, idx46, idx50, idx49, mean_apply,
    Ideal.addf_def, Ideal.subf_def, Ideal.mulf_def, Ideal.hostDivf_def, Ideal.hostUnary_rsqrt_def, Ideal.ofBits_def,
    Ideal.ofBits_zero_f32, zero_add]

/-- THE REFERENCE'S MESSAGES are the messages of the rows of the two gathered feature arrays. -/
theorem messages_eq :
    val_main_v55 (F := Ideal) x0 x1 x2 x3 x4 x5 x6 x7 x8 x9 x10
      = Message.all (val_main_v10 (F := Ideal) x0 x2) (val_main_v17 (F := Ideal) x1 x2) x3 x4 x5 x6 x7 x8 x9 x10 := by
  funext i
  obtain ⟨e, q, rfl⟩ : ∃ (e : Fin 800000) (q : Fin 128), i = ix2 e q := ⟨i 0, i 1, eq_ix2 i⟩
  unfold Message.all Message.project
  simp only [val_main_v55_apply, val_main_v52_apply, val_main_v54_apply, val_main_v53_apply, lidx52, ridx52, idx54, idx53,
    normed_apply, residual_apply, Ideal.addf_def]

end Stages

end Cert.ReferenceIdeal.Messages

end
-- ==== Proof.Bridge.lean ====
/-
  The two programs compute one function.

  Before anything else both programs cut the source and the destination index vectors out of `edge_index` and
  gather the rows of `x_src` and `x_dst` they name, with the same operations; after the messages both scatter them
  to the nodes with the same operations (`scatterMean`). In between, the kernel's 250 grid steps and the
  reference's whole-array operations both produce `Cert.Message.all` of the gathered rows and the weights. So the
  reference's result, as a function of the arguments, is the kernel program's result.
-/
import proofs.«129598_j1099511628124_1_alg».proof.Proof.KernelResult
import proofs.«129598_j1099511628124_1_alg».proof.Proof.ReferenceMessages

set_option maxRecDepth 16384
-- reading a buffer after the 27 host operations before the launch walks all of them
set_option maxHeartbeats 4000000

noncomputable section

namespace Cert.Proof.Bridge

open Idealize.ShloMosaic Idealize.ShloMosaic.TcCoe Idealize.ShloMosaic.ValueIdx Idealize.SL.Sem Idealize.ShloMosaic.StableHlo
open Cert.KernelIdeal Cert.KernelIdeal.Gen Cert.KernelIdeal.Messages

variable (m : (ℓ : Loc nD τ sig) → Buf (Elt Ideal) ℓ)

/-- The destination index vector the kernel program extracts is the reference's. -/
theorem dst_eq (c : Dev nD) :
    V m c main_v3 = Cert.ReferenceIdeal.Read.val_main_v3 (F := Ideal) (m ((c : Thread nD τ).loc main_arg2)) := by
  show StableHlo.after hostOps0 (fun b => m (c, b)) (Proc.devRef .tc main_v3) = _
  after_results
  rfl

/-- The gathered source features the kernel is launched on are the reference's. -/
theorem src_eq (c : Dev nD) :
    V m c main_v10 = Cert.ReferenceIdeal.Read.val_main_v10 (F := Ideal) (m ((c : Thread nD τ).loc main_arg0))
      (m ((c : Thread nD τ).loc main_arg2)) := by
  show StableHlo.after hostOps0 (fun b => m (c, b)) (Proc.devRef .tc main_v10) = _
  after_results
  rfl

/-- The gathered destination features the kernel is launched on are the reference's. -/
theorem dstf_eq (c : Dev nD) :
    V m c main_v17 = Cert.ReferenceIdeal.Read.val_main_v17 (F := Ideal) (m ((c : Thread nD τ).loc main_arg1))
      (m ((c : Thread nD τ).loc main_arg2)) := by
  show StableHlo.after hostOps0 (fun b => m (c, b)) (Proc.devRef .tc main_v17) = _
  after_results
  rfl

/-- A bias the kernel receives as a `[1, 128]` row, read back as a vector, is the argument. -/
theorem row_of_cast (x : (⟨1, ![128]⟩ : Shape).Idx → EReal) (h : (⟨1, ![128]⟩ : Shape).ShapeCasts ⟨2, ![1, 128]⟩) :
    rowOf (shapeCast ⟨2, ![1, 128]⟩ x h) = x := by
  funext i
  obtain ⟨q, rfl⟩ : ∃ q : Fin 128, i = ix1 q := ⟨i 0, eq_ix1 i⟩
  show shapeCast ⟨2, ![1, 128]⟩ x h (ix2 (0 : Fin 1) q) = x (ix1 q)
  exact shapeCast_a_1a_apply x h 0 q

theorem row18 (c : Dev nD) : rowOf (V m c main_v18) = m ((c : Thread nD τ).loc main_arg4) := by
  have e : (V m c main_v18 : S1x128.Idx → EReal) = shapeCast S1x128 (m ((c : Thread nD τ).loc main_arg4)) shapeCasts_S128_S1x128 := by
    show StableHlo.after hostOps0 (fun b => m (c, b)) (Proc.devRef .tc main_v18) = _
    after_results
    rfl
  rw [e]; exact row_of_cast _ _

theorem row19 (c : Dev nD) : rowOf (V m c main_v19) = m ((c : Thread nD τ).loc main_arg6) := by
  have e : (V m c main_v19 : S1x128.Idx → EReal) = shapeCast S1x128 (m ((c : Thread nD τ).loc main_arg6)) shapeCasts_S128_S1x128 := by
    show StableHlo.after hostOps0 (fun b => m (c, b)) (Proc.devRef .tc main_v19) = _
    after_results
    rfl
  rw [e]; exact row_of_cast _ _

theorem row20 (c : Dev nD) : rowOf (V m c main_v20) = m ((c : Thread nD τ).loc main_arg7) := by
  have e : (V m c main_v20 : S1x128.Idx → EReal) = shapeCast S1x128 (m ((c : Thread nD τ).loc main_arg7)) shapeCasts_S128_S1x128 := by
    show StableHlo.after hostOps0 (fun b => m (c, b)) (Proc.devRef .tc main_v20) = _
    after_results
    rfl
  rw [e]; exact row_of_cast _ _

theorem row21 (c : Dev nD) : rowOf (V m c main_v21) = m ((c : Thread nD τ).loc main_arg8) := by
  have e : (V m c main_v21 : S1x128.Idx → EReal) = shapeCast S1x128 (m ((c : Thread nD τ).loc main_arg8)) shapeCasts_S128_S1x128 := by
    show StableHlo.after hostOps0 (fun b => m (c, b)) (Proc.devRef .tc main_v21) = _
    after_results
    rfl
  rw [e]; exact row_of_cast _ _

theorem row22 (c : Dev nD) : rowOf (V m c main_v22) = m ((c : Thread nD τ).loc main_arg10) := by
  have e : (V m c main_v22 : S1x128.Idx → EReal) = shapeCast S1x128 (m ((c : Thread nD τ).loc main_arg10)) shapeCasts_S128_S1x128 := by
    show StableHlo.after hostOps0 (fun b => m (c, b)) (Proc.devRef .tc main_v22) = _
    after_results
    rfl
  rw [e]; exact row_of_cast _ _

/-- The reference's last operations are `scatterMean` of its destination indices and its messages. -/
theorem tail_eq (x0 x1 : (⟨Cert.ReferenceIdeal.S50000x128, .f32⟩ : BufTy).Contents (Elt Ideal))
    (x2 : (⟨Cert.ReferenceIdeal.S2x800000, .i32⟩ : BufTy).Contents (Elt Ideal))
    (x3 : (⟨Cert.ReferenceIdeal.S128x128, .f32⟩ : BufTy).Contents (Elt Ideal)) (x4 : (⟨Cert.ReferenceIdeal.S128, .f32⟩ : BufTy).Contents (Elt Ideal))
    (x5 : (⟨Cert.ReferenceIdeal.S128x128, .f32⟩ : BufTy).Contents (Elt Ideal)) (x6 x7 x8 : (⟨Cert.ReferenceIdeal.S128, .f32⟩ : BufTy).Contents (Elt Ideal))
    (x9 : (⟨Cert.ReferenceIdeal.S128x128, .f32⟩ : BufTy).Contents (Elt Ideal)) (x10 : (⟨Cert.ReferenceIdeal.S128, .f32⟩ : BufTy).Contents (Elt Ideal)) :
    Cert.ReferenceIdeal.Read.val_main_v67 (F := Ideal) x0 x1 x2 x3 x4 x5 x6 x7 x8 x9 x10
      = scatterMean (Cert.ReferenceIdeal.Read.val_main_v3 (F := Ideal) x2)
          (Cert.ReferenceIdeal.Read.val_main_v55 (F := Ideal) x0 x1 x2 x3 x4 x5 x6 x7 x8 x9 x10) := by
  unfold Cert.ReferenceIdeal.Read.val_main_v67 Cert.ReferenceIdeal.Read.val_main_v58 Cert.ReferenceIdeal.Read.val_main_v66
    Cert.ReferenceIdeal.Read.val_main_v65 Cert.ReferenceIdeal.Read.val_main_v64 Cert.ReferenceIdeal.Read.val_main_v63
    Cert.ReferenceIdeal.Read.val_main_v62 Cert.ReferenceIdeal.Read.val_main_v61 Cert.ReferenceIdeal.Read.val_main_v60
    Cert.ReferenceIdeal.Read.val_main_v59 Cert.ReferenceIdeal.Read.val_main_v57 Cert.ReferenceIdeal.Read.val_main_v56
    Cert.ReferenceIdeal.Read.val_main_cst_7 Cert.ReferenceIdeal.Read.val_main_cst_8 Cert.ReferenceIdeal.Read.val_main_cst_9
    Cert.ReferenceIdeal.Read.val_main_cst_10 scatterMean
  rfl

/-- THE REFERENCE'S RESULT, as a function of arguments equal to the kernel program's, is the kernel program's. -/
theorem result_eq (c : Dev nD) :
    Cert.ReferenceIdeal.Read.val_main_v67 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
      = scatterMean (V m c main_v3) (msgs m c) := by
  rw [tail_eq, Cert.ReferenceIdeal.Messages.messages_eq]
  unfold msgs
  rw [dst_eq, src_eq, dstf_eq, row18, row19, row20, row21, row22, V_main_arg3, V_main_arg5, V_main_arg9]

end Cert.Proof.Bridge

end
-- ==== Proof.lean ====
/-
  A message-passing layer of a graph network, as a tiled kernel between host gathers and scatters, against the same
  layer written with whole-array operations.

  For each of 800000 edges the layer takes the source node's and the destination node's 128 features, predicts the
  source row from the destination row with a two-layer perceptron, normalises the residual over its 128 entries,
  projects it with a third 128 × 128 weight, and averages the resulting messages over the edges that arrive at each
  of the 50000 nodes. The kernel program gathers the rows on the host, runs the dense chain in 250 grid steps of
  3200 edges each, and scatters on the host; the reference does every stage on whole arrays.

  On the extended reals the two agree exactly, operation for operation: every stage of the dense chain acts on one
  edge's rows at a time, so a grid step's block is a block of the one array `Cert.Message.all` — the kernel side in
  Proof/KernelRow.lean and Proof/KernelArray.lean, the reference side in Proof/ReferenceMessages.lean — while the
  gathers before and the scatter-mean after are the same operations in both programs (Proof/KernelResult.lean,
  Proof/Bridge.lean). No law of arithmetic is needed beyond `0 + s = s` for the host's sums, so the precondition is
  never opened. The three frames are the generated ones; the ideal pass rewrote nothing, so `preserves` is trivial.
-/
import proofs.«129598_j1099511628124_1_alg».proof.Defs
import proofs.«129598_j1099511628124_1_alg».proof.Proof.Gen.Kernel
import proofs.«129598_j1099511628124_1_alg».proof.Proof.Gen.Kernel.Skeleton
import proofs.«129598_j1099511628124_1_alg».proof.Proof.Gen.Kernel.Launch
import proofs.«129598_j1099511628124_1_alg».proof.Proof.Gen.Kernel.Points
import proofs.«129598_j1099511628124_1_alg».proof.Proof.Gen.Kernel.Frame
import proofs.«129598_j1099511628124_1_alg».proof.Proof.Gen.KernelIdeal
import proofs.«129598_j1099511628124_1_alg».proof.Proof.Gen.KernelIdeal.Skeleton
import proofs.«129598_j1099511628124_1_alg».proof.Proof.Gen.KernelIdeal.Launch
import proofs.«129598_j1099511628124_1_alg».proof.Proof.Gen.KernelIdeal.Points
import proofs.«129598_j1099511628124_1_alg».proof.Proof.Gen.KernelIdeal.Frame
import proofs.«129598_j1099511628124_1_alg».proof.Proof.Gen.ReferenceIdeal
import proofs.«129598_j1099511628124_1_alg».proof.Proof.Gen.ReferenceIdeal.Run
import proofs.«129598_j1099511628124_1_alg».proof.Proof.Gen.ReferenceIdeal.Read
import proofs.«129598_j1099511628124_1_alg».proof.Proof.Gen.Pre_finite_inputs
import proofs.«129598_j1099511628124_1_alg».proof.Proof.Bridge
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the mean, over the edges arriving at each node,
    of the edges' messages: the kernel program by its run (`Cert.KernelIdeal.Messages.run`), the reference by its
    run read as the same function of the arguments (`Bridge.result_eq`). -/
theorem algebraic : Cert.algebraic_KernelIdeal_ReferenceIdeal := by
  intro m ρ m' ρ' _ hagree
  refine ⟨fun c => Cert.KernelIdeal.Messages.scatterMean (Cert.KernelIdeal.Gen.V m c Cert.KernelIdeal.main_v3)
    (Cert.KernelIdeal.Messages.msgs m c), Cert.KernelIdeal.Messages.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v67_eq, a0, a1, a2, a3, a4, a5, a6, a7, a8, a9, a10]
  exact Bridge.result_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
